-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v53)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v53) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S64x128 : Shape := ⟨2, ![64, 128]⟩
abbrev S64 : Shape := ⟨1, ![64]⟩
abbrev S128x64 : Shape := ⟨2, ![128, 64]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_
  bcast_S_S128x64 : S_.BroadcastsInDim S128x64 (![] : Fin 0 → Fin S128x64.rank)
  reducesTo_S128x64_S_d0_1 : S128x64.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128x64 .f32) (main_arg6 : FVec F S128x64 .f32) (main_arg7 : FVec F S128 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S128x64 .f32 := Host.absf main_arg5
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S128x64 .f32 := Host.absf main_arg6
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S100000x128 .f32) (main_arg1 : IVec S2x1600000 32) (main_arg2 : FVec F S64x128 .f32) (main_arg3 : FVec F S64x128 .f32) (main_arg4 : FVec F S64 .f32) (main_arg5 : FVec F S128x64 .f32) (main_arg6 : FVec F S128x64 .f32) (main_arg7 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S64x128 .f32 := Host.absf main_arg2
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S64x128 .f32 := Host.absf main_arg3
  let main_cst_2 : FVec F S_ .f32 := constant S_ .f32 0x7F800000#32
  let main_v10 : FVec F S64x128 .f32 := broadcastInDim S64x128 ![] bcast_S_S64x128 main_cst_2
  let main_v11 : IVec S64x128 1 := cmpf .olt main_v9 main_v10
  let main_c_3 : IVec S_ 1 := constantI S_ 1 1#1
  let main_v12 : IVec S_ 1 := (fun x v => Host.reduce IntOp.andi x v reducesTo_S64x128_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_v13 main_v16
-- ==== Kernel.lean ====
abbrev S100000x128 : Shape := ⟨2, ![100000, 128]⟩
abbrev S2x1600000 : Shape := ⟨2, ![2, 1600000]⟩
abbrev S64x128 : Shape := ⟨2, ![64, 128]⟩
abbrev S64 : Shape := ⟨1, ![64]⟩
abbrev S128x64 : Shape := ⟨2, ![128, 64]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x64 : Shape := ⟨2, ![1, 64]⟩
abbrev S100000x64 : Shape := ⟨2, ![100000, 64]⟩
abbrev S5000x128 : Shape := ⟨2, ![5000, 128]⟩
abbrev S5000x64 : Shape := ⟨2, ![5000, 64]⟩
abbrev S1600000x64 : Shape := ⟨2, ![1600000, 64]⟩
abbrev S1x128 : Shape := ⟨2, ![1, 128]⟩

abbrev nBuf : Space → Nat
  | .hbm => 74
  | .vmem => 18
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S64x128, .f32⟩
  | .hbm, ⟨3, _⟩ => ⟨S64x128, .f32⟩
  | .hbm, ⟨4, _⟩ => ⟨S64, .f32⟩
  | .hbm, ⟨5, _⟩ => ⟨S128x64, .f32⟩
  | .hbm, ⟨6, _⟩ => ⟨S128x64, .f32⟩
  | .hbm, ⟨7, _⟩ => ⟨S128, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x128, .f32⟩
  | .hbm, ⟨21, _⟩ => ⟨S_, .f32⟩
  | .hbm, ⟨22, _⟩ => ⟨S100000x128, .f32⟩
  | .hbm, ⟨23, _⟩ => ⟨S1600000x1, .i32⟩
  | .hbm, ⟨24, _⟩ => ⟨S100000x128, .f32⟩
  | .hbm, ⟨25, _⟩ => ⟨S_, .f32⟩
  | .hbm, ⟨26, _⟩ => ⟨S1600000, .f32⟩
  | .hbm, ⟨27, _⟩ => ⟨S_, .f32⟩
  | .hbm, ⟨28, _⟩ => ⟨S100000, .f32⟩
  | .hbm, ⟨29, _⟩ => ⟨S1600000x1, .i32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x128, .f32⟩
  | .hbm, ⟨36, _⟩ => ⟨S100000x128, .f32⟩
  | .hbm, ⟨37, _⟩ => ⟨S128x64, .f32⟩
  | .hbm, ⟨38, _⟩ => ⟨S128x64, .bf16⟩
  | .hbm, ⟨39, _⟩ => ⟨S128x64, .f32⟩
  | .hbm, ⟨40, _⟩ => ⟨S128x64, .bf16⟩
  | .hbm, ⟨41, _⟩ => ⟨S1x64, .f32⟩
  | .hbm, ⟨42, _⟩ => ⟨S100000x64, .f32⟩
  | .hbm, ⟨43, _⟩ => ⟨S_, .i32⟩
  | .hbm, ⟨44, _⟩ => ⟨S1600000, .i32⟩
  | .hbm, ⟨45, _⟩ => ⟨S1600000, .i1⟩
  | .hbm, ⟨46, _⟩ => ⟨S_, .i32⟩
  | .hbm, ⟨47, _⟩ => ⟨S1600000, .i32⟩
  | .hbm, ⟨48, _⟩ => ⟨S1600000, .i32⟩
  | .hbm, ⟨49, _⟩ => ⟨S1600000, .i32⟩
  | .hbm, ⟨50, _⟩ => ⟨S1600000x1, .i32⟩
  | .hbm, ⟨51, _⟩ => ⟨S1600000x64, .f32⟩
  | .hbm, ⟨52, _⟩ => ⟨S_, .f32⟩
  | .hbm, ⟨53, _⟩ => ⟨S100000x64, .f32⟩
  | .hbm, ⟨54, _⟩ => ⟨S1600000x1, .i32⟩
  | .hbm, ⟨55, _⟩ => ⟨S100000x64, .f32⟩
  | .hbm, ⟨56, _⟩ => ⟨S_, .f32⟩
  | .hbm, ⟨57, _⟩ => ⟨S1600000, .f32⟩
  | .hbm, ⟨58, _⟩ => ⟨S_, .f32⟩
  | .hbm, ⟨59, _⟩ => ⟨S100000, .f32⟩
  | .hbm, ⟨60, _⟩ => ⟨S1600000x1, .i32⟩
  | .hbm, ⟨61, _⟩ => ⟨S100000, .f32⟩
  | .hbm, ⟨62, _⟩ => ⟨S_, .f32⟩
  | .hbm, ⟨63, _⟩ => ⟨S100000, .f32⟩
  | .hbm, ⟨64, _⟩ => ⟨S100000, .f32⟩
  | .hbm, ⟨65, _⟩ => ⟨S100000x1, .f32⟩
  | .hbm, ⟨66, _⟩ => ⟨S100000x64, .f32⟩
  | .hbm, ⟨67, _⟩ => ⟨S100000x64, .f32⟩
  | .hbm, ⟨68, _⟩ => ⟨S64x128, .f32⟩
  | .hbm, ⟨69, _⟩ => ⟨S64x128, .bf16⟩
  | .hbm, ⟨70, _⟩ => ⟨S64x128, .f32⟩
  | .hbm, ⟨71, _⟩ => ⟨S64x128, .bf16⟩
  | .hbm, ⟨72, _⟩ => ⟨S1x128, .f32⟩
  | .hbm, ⟨73, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x64, .bf16⟩
  | .local _ .vmem, ⟨5, _⟩ => ⟨S128x64, .bf16⟩
  | .local _ .vmem, ⟨6, _⟩ => ⟨S1x64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S64x128, .bf16⟩
  | .local _ .vmem, ⟨14, _⟩ => ⟨S64x128, .bf16⟩
  | .local _ .vmem, ⟨15, _⟩ => ⟨S1x128, .f32⟩
  | .local _ .vmem, ⟨16, _⟩ => ⟨S5000x128, .f32⟩
  | .local _ .vmem, ⟨17, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_c_4 : Ref sig .tc := ⟨.hbm, 43, rfl⟩
abbrev main_v29 : Ref sig .tc := ⟨.hbm, 44, rfl⟩
abbrev main_v30 : Ref sig .tc := ⟨.hbm, 45, rfl⟩
abbrev main_c_5 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_6 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_7 : Ref sig .tc := ⟨.hbm, 56, rfl⟩
abbrev main_v39 : Ref sig .tc := ⟨.hbm, 57, rfl⟩
abbrev main_cst_8 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x128 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x128 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  transposes_S64x128_S128x64_1_0 : S64x128.Transposes [1, 0] S128x64
  bitsLt_bf16_f32 : FTy.bits .bf16 < FTy.bits .f32
  shapeCasts_S64_S1x64 : S64.ShapeCasts S1x64
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  transposes_S128x64_S64x128_1_0 : S128x64.Transposes [1, 0] S64x128
  shapeCasts_S128_S1x128 : S128.ShapeCasts S1x128
  shapeCasts_S5000x64_S5000x64 : S5000x64.ShapeCasts S5000x64
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S5000x128_S128x64_S5000x64_1_0_0_1_n_n_wf : DotDims.WF S5000x128 S128x64 S5000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x64_S64x128_S5000x128_1_0_0_1_n_n_wf : DotDims.WF S5000x64 S64x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x64.size a ≤ S128x64.size a
  hwx0_2 : ∀ i : grid0.Coords, EltTy.bits .bf16 = 32 ∨ (Rect.block (s := S128x64) S128x64.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x64.size a ≤ S128x64.size a
  hwx0_3 : ∀ i : grid0.Coords, EltTy.bits .bf16 = 32 ∨ (Rect.block (s := S128x64) S128x64.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x64.size a ≤ S100000x64.size a
  hwx0_5 : ∀ i : grid0.Coords, EltTy.bits .f32 = 32 ∨ (Rect.block (s := S100000x64) S5000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x128.size a ≤ S64x128.size a
  hwx1_2 : ∀ i : grid1.Coords, EltTy.bits .bf16 = 32 ∨ (Rect.block (s := S64x128) S64x128.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x128.size a ≤ S64x128.size a
  hwx1_3 : ∀ i : grid1.Coords, EltTy.bits .bf16 = 32 ∨ (Rect.block (s := S64x128) S64x128.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S100000x128.size a
  hwx1_5 : ∀ i : grid1.Coords, EltTy.bits .f32 = 32 ∨ (Rect.block (s := S100000x128) S5000x128.size (cc1_transform_5 i) (hinb1_5 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf

abbrev win0_0 : Pipeline.Window sig grid0 :=
  Pipeline.Window.ofSpec (Memref.whole main_v22) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v24) S128x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v26) S128x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v27) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v28) S5000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v47) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v28) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v49) S64x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v51) S64x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v52) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v53) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S64x128 : Shape := ⟨2, ![64, 128]⟩
abbrev S64 : Shape := ⟨1, ![64]⟩
abbrev S128x64 : Shape := ⟨2, ![128, 64]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S100000x64 : Shape := ⟨2, ![100000, 64]⟩
abbrev S1x64 : Shape := ⟨2, ![1, 64]⟩
abbrev S1600000x64 : Shape := ⟨2, ![1600000, 64]⟩
abbrev S1x128 : Shape := ⟨2, ![1, 128]⟩

abbrev nBuf : Space → Nat
  | .hbm => 81
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S64x128, .f32⟩
  | .hbm, ⟨3, _⟩ => ⟨S64x128, .f32⟩
  | .hbm, ⟨4, _⟩ => ⟨S64, .f32⟩
  | .hbm, ⟨5, _⟩ => ⟨S128x64, .f32⟩
  | .hbm, ⟨6, _⟩ => ⟨S128x64, .f32⟩
  | .hbm, ⟨7, _⟩ => ⟨S128, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x128, .f32⟩
  | .hbm, ⟨21, _⟩ => ⟨S_, .f32⟩
  | .hbm, ⟨22, _⟩ => ⟨S100000x128, .f32⟩
  | .hbm, ⟨23, _⟩ => ⟨S1600000x1, .i32⟩
  | .hbm, ⟨24, _⟩ => ⟨S100000x128, .f32⟩
  | .hbm, ⟨25, _⟩ => ⟨S_, .f32⟩
  | .hbm, ⟨26, _⟩ => ⟨S1600000, .f32⟩
  | .hbm, ⟨27, _⟩ => ⟨S_, .f32⟩
  | .hbm, ⟨28, _⟩ => ⟨S100000, .f32⟩
  | .hbm, ⟨29, _⟩ => ⟨S1600000x1, .i32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x128, .f32⟩
  | .hbm, ⟨36, _⟩ => ⟨S100000x128, .f32⟩
  | .hbm, ⟨37, _⟩ => ⟨S128x64, .f32⟩
  | .hbm, ⟨38, _⟩ => ⟨S100000x64, .f32⟩
  | .hbm, ⟨39, _⟩ => ⟨S1x64, .f32⟩
  | .hbm, ⟨40, _⟩ => ⟨S100000x64, .f32⟩
  | .hbm, ⟨41, _⟩ => ⟨S100000x64, .f32⟩
  | .hbm, ⟨42, _⟩ => ⟨S128x64, .f32⟩
  | .hbm, ⟨43, _⟩ => ⟨S100000x64, .f32⟩
  | .hbm, ⟨44, _⟩ => ⟨S100000x64, .f32⟩
  | .hbm, ⟨45, _⟩ => ⟨S_, .f32⟩
  | .hbm, ⟨46, _⟩ => ⟨S100000x64, .f32⟩
  | .hbm, ⟨47, _⟩ => ⟨S100000x64, .f32⟩
  | .hbm, ⟨48, _⟩ => ⟨S_, .i32⟩
  | .hbm, ⟨49, _⟩ => ⟨S1600000, .i32⟩
  | .hbm, ⟨50, _⟩ => ⟨S1600000, .i1⟩
  | .hbm, ⟨51, _⟩ => ⟨S_, .i32⟩
  | .hbm, ⟨52, _⟩ => ⟨S1600000, .i32⟩
  | .hbm, ⟨53, _⟩ => ⟨S1600000, .i32⟩
  | .hbm, ⟨54, _⟩ => ⟨S1600000, .i32⟩
  | .hbm, ⟨55, _⟩ => ⟨S1600000x1, .i32⟩
  | .hbm, ⟨56, _⟩ => ⟨S1600000x64, .f32⟩
  | .hbm, ⟨57, _⟩ => ⟨S_, .f32⟩
  | .hbm, ⟨58, _⟩ => ⟨S100000x64, .f32⟩
  | .hbm, ⟨59, _⟩ => ⟨S1600000x1, .i32⟩
  | .hbm, ⟨60, _⟩ => ⟨S100000x64, .f32⟩
  | .hbm, ⟨61, _⟩ => ⟨S_, .f32⟩
  | .hbm, ⟨62, _⟩ => ⟨S1600000, .f32⟩
  | .hbm, ⟨63, _⟩ => ⟨S_, .f32⟩
  | .hbm, ⟨64, _⟩ => ⟨S100000, .f32⟩
  | .hbm, ⟨65, _⟩ => ⟨S1600000x1, .i32⟩
  | .hbm, ⟨66, _⟩ => ⟨S100000, .f32⟩
  | .hbm, ⟨67, _⟩ => ⟨S_, .f32⟩
  | .hbm, ⟨68, _⟩ => ⟨S100000, .f32⟩
  | .hbm, ⟨69, _⟩ => ⟨S100000, .f32⟩
  | .hbm, ⟨70, _⟩ => ⟨S100000x1, .f32⟩
  | .hbm, ⟨71, _⟩ => ⟨S100000x64, .f32⟩
  | .hbm, ⟨72, _⟩ => ⟨S100000x64, .f32⟩
  | .hbm, ⟨73, _⟩ => ⟨S64x128, .f32⟩
  | .hbm, ⟨74, _⟩ => ⟨S100000x128, .f32⟩
  | .hbm, ⟨75, _⟩ => ⟨S1x128, .f32⟩
  | .hbm, ⟨76, _⟩ => ⟨S100000x128, .f32⟩
  | .hbm, ⟨77, _⟩ => ⟨S100000x128, .f32⟩
  | .hbm, ⟨78, _⟩ => ⟨S64x128, .f32⟩
  | .hbm, ⟨79, _⟩ => ⟨S100000x128, .f32⟩
  | .hbm, ⟨80, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_call0_cst : Ref sig .tc := ⟨.hbm, 45, rfl⟩
abbrev main_call0_v0 : Ref sig .tc := ⟨.hbm, 46, rfl⟩
abbrev main_v31 : Ref sig .tc := ⟨.hbm, 47, rfl⟩
abbrev main_c_4 : Ref sig .tc := ⟨.hbm, 48, rfl⟩
abbrev main_v32 : Ref sig .tc := ⟨.hbm, 49, rfl⟩
abbrev main_v33 : Ref sig .tc := ⟨.hbm, 50, rfl⟩
abbrev main_c_5 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_6 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_7 : Ref sig .tc := ⟨.hbm, 61, rfl⟩
abbrev main_v42 : Ref sig .tc := ⟨.hbm, 62, rfl⟩
abbrev main_cst_8 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_9 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  transposes_S64x128_S128x64_1_0 : S64x128.Transposes [1, 0] S128x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  transposes_S128x64_S64x128_1_0 : S128x64.Transposes [1, 0] S64x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x64_S100000x64_1_0_0_1_n_n_wf : DotDims.WF S100000x128 S128x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x128_S100000x128_1_0_0_1_n_n_wf : DotDims.WF S100000x64 S64x128 S100000x128 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x128_S100000x128_1_0_0_1_n_n : DotDims S100000x64 S64x128 S100000x128 where
  lhsContracting := [1]
  rhsContracting := [0]
  lhsNonContracting := [0]
  rhsNonContracting := [1]
  lhsBatch := []
  rhsBatch := []
  wf := dot_S100000x64_S64x128_S100000x128_1_0_0_1_n_n_wf

class Facts : Prop extends Facts₀ where

variable [Facts]
-- ==== Proof.Agg.lean ====
/-
  The neighbour mean that both programs compute on the host, as named functions, and the small layout steps
  around the two layers.

  From the edge list e : i32[2, E] the sources are row 0 and the destinations row 1. A source index below zero is
  wrapped once by the node count. For node features h : f32[N, d] the mean aggregate is, row by row,
  (the sum over the edges into that node of the source's feature row) / max(in-degree, 1), the in-degree being the
  scatter-sum of ones over the destinations. Nothing here is opened by the proof: the two programs apply these same
  operations, and the proof only needs that they are applied to equal inputs.
-/
import proofs.«127781_j28621662060925_1_alg».proof.KernelIdeal

noncomputable section

namespace Cert.Sage

open Idealize.ShloMosaic Cert.KernelIdeal Cert.KernelIdeal.Facts₀

variable {F : FTy → Type} [FloatOps F] [Cert.KernelIdeal.Facts]

/-- Row 0 of the edge list: the source of each edge. -/
def srcOf (e : Vec F S2x1600000 .i32) : Vec F S1600000 .i32 :=
  shapeCast _ (extractStridedSlice S1x1600000 ![0, 0] e slices_S2x1600000_S1x1600000_0_0) shapeCasts_S1x1600000_S1600000

/-- Row 1 of the edge list: the destination of each edge. -/
def dstOf (e : Vec F S2x1600000 .i32) : Vec F S1600000 .i32 :=
  shapeCast _ (extractStridedSlice S1x1600000 ![1, 0] e slices_S2x1600000_S1x1600000_1_0) shapeCasts_S1x1600000_S1600000

/-- The sources as gather indices: a negative one wrapped by the node count, laid out as a column. -/
def srcCol (s : Vec F S1600000 .i32) : Vec F S1600000x1 .i32 :=
  broadcastInDim S1600000x1 ![0] bcast_S1600000_S1600000x1_0
    (select (cmpi .slt s (broadcastInDim S1600000 ![] bcast_S_S1600000 (constantI S_ 32 0#32)))
      (addi s (broadcastInDim S1600000 ![] bcast_S_S1600000 (constantI S_ 32 100000#32))) s)

/-- The destinations laid out as a column of scatter indices. -/
def dstCol (d : Vec F S1600000 .i32) : Vec F S1600000x1 .i32 :=
  broadcastInDim S1600000x1 ![0] bcast_S1600000_S1600000x1_0 d

/-- max(in-degree, 1) per node. -/
def degClamped (d : Vec F S1600000 .i32) : Vec F S100000 .f32 :=
  maximumf
    (Host.scatterAdd scatter_S100000_S1600000x1_S1600000_n_0_0_1
      (broadcastInDim S100000 ![] bcast_S_S100000 (constant S_ .f32 0x00000000#32)) (dstCol d)
      (broadcastInDim S1600000 ![] bcast_S_S1600000 (constant S_ .f32 0x3F800000#32)))
    (broadcastInDim S100000 ![] bcast_S_S100000 (constant S_ .f32 0x3F800000#32))

/-- The mean aggregate of 128-wide node features. -/
def agg128 (x : Vec F S100000x128 .f32) (s d : Vec F S1600000 .i32) : Vec F S100000x128 .f32 :=
  Host.divf
    (Host.scatterAdd scatter_S100000x128_S1600000x1_S1600000x128_1_0_0_1
      (broadcastInDim S100000x128 ![] bcast_S_S100000x128 (constant S_ .f32 0x00000000#32)) (dstCol d)
      (Host.gather gather_S100000x128_S1600000x1_S1600000x128_1_0_n_n_0_1_1128 x (srcCol s)))
    (broadcastInDim S100000x128 ![0, 1] bcast_S100000x1_S100000x128_0_1
      (broadcastInDim S100000x1 ![0] bcast_S100000_S100000x1_0 (degClamped d)))

/-- The mean aggregate of 64-wide node features. -/
def agg64 (h : Vec F S100000x64 .f32) (s d : Vec F S1600000 .i32) : Vec F S100000x64 .f32 :=
  Host.divf
    (Host.scatterAdd scatter_S100000x64_S1600000x1_S1600000x64_1_0_0_1
      (broadcastInDim S100000x64 ![] bcast_S_S100000x64 (constant S_ .f32 0x00000000#32)) (dstCol d)
      (Host.gather gather_S100000x64_S1600000x1_S1600000x64_1_0_n_n_0_1_164 h (srcCol s)))
    (broadcastInDim S100000x64 ![0, 1] bcast_S100000x1_S100000x64_0_1
      (broadcastInDim S100000x1 ![0] bcast_S100000_S100000x1_0 (degClamped d)))

/-- A first-layer weight W : [64, 128] as the matrix the product uses, Wᵀ : [128, 64]. -/
def wT1 (w : Vec F S64x128 .f32) : Vec F S128x64 .f32 := transpose S128x64 [1, 0] w transposes_S64x128_S128x64_1_0

/-- A second-layer weight W : [128, 64] as Wᵀ : [64, 128]. -/
def wT2 (w : Vec F S128x64 .f32) : Vec F S64x128 .f32 := transpose S64x128 [1, 0] w transposes_S128x64_S64x128_1_0

/-- The first layer's bias as a row [1, 64]. -/
def row64 (b : Vec F S64 .f32) : Vec F S1x64 .f32 := shapeCast S1x64 b shapeCasts_S64_S1x64

/-- The second layer's bias as a row [1, 128]. -/
def row128 (b : Vec F S128 .f32) : Vec F S1x128 .f32 := shapeCast S1x128 b shapeCasts_S128_S1x128

end Cert.Sage

end
-- ==== Proof.Spec.lean ====
/-
  The two layers as functions of whole arrays over the extended reals, entry by entry.

  layer1 a x wl wr b at (r, c) = max( (Σ_k a(r,k)·wl(k,c)) + (Σ_k x(r,k)·wr(k,c)) + b(0,c), 0 )
  layer2 a h wl wr b at (r, c) =      (Σ_k a(r,k)·wl(k,c)) + (Σ_k h(r,k)·wr(k,c)) + b(0,c)

  and the whole computation: with s, d the edge sources and destinations,
    h   = layer1 (mean-aggregate of x) x W_l1ᵀ W_r1ᵀ b1
    out = layer2 (mean-aggregate of h) h W_l2ᵀ W_r2ᵀ b2.
-/
import proofs.«127781_j28621662060925_1_alg».proof.Proof.Agg
import Idealize.ShloMosaic.PureOps.Ideal
import Idealize.ShloMosaic.Lib.ValueIdx

noncomputable section

open scoped BigOperators

namespace Cert.Sage

open Idealize.ShloMosaic Idealize.ShloMosaic.ValueIdx Cert.KernelIdeal

/-- One entry of the first layer. -/
def layer1At (a x : S100000x128.Idx → EReal) (wl wr : S128x64.Idx → EReal) (b : S1x64.Idx → EReal)
    (r : Fin 100000) (c : Fin 64) : EReal :=
  max (((∑ k : Fin 128, a (ix2 r k) * wl (ix2 k c)) + (∑ k : Fin 128, x (ix2 r k) * wr (ix2 k c)))
    + b (ix2 (0 : Fin 1) c)) 0

/-- The first layer, as an array [100000, 64]. -/
def layer1 (a x : S100000x128.Idx → EReal) (wl wr : S128x64.Idx → EReal) (b : S1x64.Idx → EReal) :
    S100000x64.Idx → EReal :=
  fun i => layer1At a x wl wr b ⟨(i 0).val, (i 0).isLt⟩ ⟨(i 1).val, (i 1).isLt⟩

theorem layer1_ix2 (a x : S100000x128.Idx → EReal) (wl wr : S128x64.Idx → EReal) (b : S1x64.Idx → EReal)
    (r : Fin 100000) (c : Fin 64) : layer1 a x wl wr b (ix2 r c) = layer1At a x wl wr b r c := rfl

/-- One entry of the second layer. -/
def layer2At (a h : S100000x64.Idx → EReal) (wl wr : S64x128.Idx → EReal) (b : S1x128.Idx → EReal)
    (r : Fin 100000) (c : Fin 128) : EReal :=
  ((∑ k : Fin 64, a (ix2 r k) * wl (ix2 k c)) + (∑ k : Fin 64, h (ix2 r k) * wr (ix2 k c)))
    + b (ix2 (0 : Fin 1) c)

/-- The second layer, as an array [100000, 128]. -/
def layer2 (a h : S100000x64.Idx → EReal) (wl wr : S64x128.Idx → EReal) (b : S1x128.Idx → EReal) :
    S100000x128.Idx → EReal :=
  fun i => layer2At a h wl wr b ⟨(i 0).val, (i 0).isLt⟩ ⟨(i 1).val, (i 1).isLt⟩

theorem layer2_ix2 (a h : S100000x64.Idx → EReal) (wl wr : S64x128.Idx → EReal) (b : S1x128.Idx → EReal)
    (r : Fin 100000) (c : Fin 128) : layer2 a h wl wr b (ix2 r c) = layer2At a h wl wr b r c := rfl

variable [Cert.KernelIdeal.Facts]

/-- The hidden features after the first layer, from the arguments. -/
def hidden (x0 : Vec Ideal S100000x128 .f32) (x1 : Vec Ideal S2x1600000 .i32) (x2 x3 : Vec Ideal S64x128 .f32)
    (x4 : Vec Ideal S64 .f32) : S100000x64.Idx → EReal :=
  layer1 (agg128 x0 (srcOf x1) (dstOf x1)) x0 (wT1 x2) (wT1 x3) (row64 x4)

/-- The whole result, from the arguments. -/
def result (x0 : Vec Ideal S100000x128 .f32) (x1 : Vec Ideal S2x1600000 .i32) (x2 x3 : Vec Ideal S64x128 .f32)
    (x4 : Vec Ideal S64 .f32) (x5 x6 : Vec Ideal S128x64 .f32) (x7 : Vec Ideal S128 .f32) : S100000x128.Idx → EReal :=
  layer2 (agg64 (hidden x0 x1 x2 x3 x4) (srcOf x1) (dstOf x1)) (hidden x0 x1 x2 x3 x4) (wT2 x5) (wT2 x6) (row128 x7)

end Cert.Sage

end
-- ==== Proof.LibKeepAll.lean ====
/-
  A buffer that no operation of a list writes keeps its contents across the list — for lists that also hold
  operations of any number of operands.
-/
import Idealize.ShloMosaic.Lib.StableHlo.Run

namespace Cert.LibKeepAll

open Idealize.ShloMosaic

/-- Closes `after ops X (devRef b) = X (devRef b)` for a literal list `ops` (named by the identifier given) none of
    whose operations writes `b`: each operation writes one literal reference, and it differs from `b`. -/
macro "kept_all" ops:ident : tactic => `(tactic|
  exact StableHlo.after_of_forall_not_mem _ _ (List.forall_iff_forall_mem.mp (by
    simp only [$ops:ident, List.flatten_cons, List.flatten_nil, List.append_nil, List.cons_append, List.nil_append,
      List.Forall, StableHlo.nullary_writes, StableHlo.unary_writes, StableHlo.binary_writes, StableHlo.ternary_writes,
      StableHlo.quaternary_writes, StableHlo.reshape_writes, StableHlo.binaryIndexed_writes, StableHlo.nary_writes,
      StableHlo.unaryIndexed_writes, Finset.mem_singleton]
    repeat' apply And.intro
    all_goals exact StableHlo.devRef_ne_of_ne (by decide))))

end Cert.LibKeepAll
-- ==== Proof.KHost.lean ====
/-
  The host operations around the two regions, read through the frame's boundary contents.

  Before the first region the host computes the mean aggregate of x, the two transposed weights (the change of
  float format is the identity on extended reals) and the bias as a row; x itself is untouched. Between the regions
  it computes the mean aggregate of the first region's output from the same edge sources and destinations, and the
  second layer's transposed weights and bias row; the first region's output is untouched by these operations.
-/
import proofs.«127781_j28621662060925_1_alg».proof.Proof.FrameKernelIdeal
import proofs.«127781_j28621662060925_1_alg».proof.Proof.Spec
import proofs.«127781_j28621662060925_1_alg».proof.Proof.LibKeepAll
import Idealize.ShloMosaic.Lib.StableHlo.Run

set_option maxRecDepth 16384

noncomputable section

open Idealize.ShloMosaic Idealize.ShloMosaic.TcCoe Idealize.ShloMosaic.StableHlo Idealize.SL.Sem

namespace Cert.KernelIdeal.Host

open Cert.KernelIdeal Cert.KernelIdeal.Gen Cert.KernelIdeal.GenP Cert.Sage Cert.LibKeepAll

variable (m : (ℓ : Loc nD τ sig) → Buf (Elt Ideal) ℓ) (ρ : Dev nD → PrngReg)

/-! ## The argument arrays, at their literal types -/

abbrev x0 (c : Dev nD) : Vec Ideal S100000x128 .f32 := m ((c : Thread nD τ).loc main_arg0)
abbrev x1 (c : Dev nD) : Vec Ideal S2x1600000 .i32 := m ((c : Thread nD τ).loc main_arg1)
abbrev x2 (c : Dev nD) : Vec Ideal S64x128 .f32 := m ((c : Thread nD τ).loc main_arg2)
abbrev x3 (c : Dev nD) : Vec Ideal S64x128 .f32 := m ((c : Thread nD τ).loc main_arg3)
abbrev x4 (c : Dev nD) : Vec Ideal S64 .f32 := m ((c : Thread nD τ).loc main_arg4)
abbrev x5 (c : Dev nD) : Vec Ideal S128x64 .f32 := m ((c : Thread nD τ).loc main_arg5)
abbrev x6 (c : Dev nD) : Vec Ideal S128x64 .f32 := m ((c : Thread nD τ).loc main_arg6)
abbrev x7 (c : Dev nD) : Vec Ideal S128 .f32 := m ((c : Thread nD τ).loc main_arg7)

/-! ## What the first region is entered with -/

/-- The edge sources, as the first stretch leaves them. -/
theorem src_entry (c : Dev nD) : W1 m ρ c (Proc.devRef .tc main_v1) = srcOf (x1 m c) := by
  show StableHlo.after hostOps0 (W0 m ρ c) (Proc.devRef .tc main_v1) = _
  dsimp only [hostOps0]
  after_results
  rfl

/-- The edge destinations, as the first stretch leaves them. -/
theorem dst_entry (c : Dev nD) : W1 m ρ c (Proc.devRef .tc main_v3) = dstOf (x1 m c) := by
  show StableHlo.after hostOps0 (W0 m ρ c) (Proc.devRef .tc main_v3) = _
  dsimp only [hostOps0]
  after_results
  rfl

set_option maxHeartbeats 1000000 in
/-- Window 0 of the first region: the mean aggregate of x. -/
theorem aggr_entry (c : Dev nD) :
    W1 m ρ c (Proc.devRef .tc main_v22) = agg128 (x0 m c) (srcOf (x1 m c)) (dstOf (x1 m c)) := by
  show StableHlo.after hostOps0 (W0 m ρ c) (Proc.devRef .tc main_v22) = _
  dsimp only [hostOps0]
  after_results_simp
  rfl

/-- Window 1 of the first region: x, which no host operation writes. -/
theorem x_entry (c : Dev nD) : W1 m ρ c (Proc.devRef .tc main_arg0) = x0 m c := by
  show StableHlo.after hostOps0 (W0 m ρ c) (Proc.devRef .tc main_arg0) = _
  refine Eq.trans ?_ (rfl : W0 m ρ c (Proc.devRef .tc main_arg0) = _)
  kept_all hostOps0

/-- Window 2 of the first region: W_l1 transposed. -/
theorem wl1_entry (c : Dev nD) : W1 m ρ c (Proc.devRef .tc main_v24) = wT1 (x2 m c) := by
  show StableHlo.after hostOps0 (W0 m ρ c) (Proc.devRef .tc main_v24) = _
  dsimp only [hostOps0]
  after_results
  rfl

/-- Window 3 of the first region: W_r1 transposed. -/
theorem wr1_entry (c : Dev nD) : W1 m ρ c (Proc.devRef .tc main_v26) = wT1 (x3 m c) := by
  show StableHlo.after hostOps0 (W0 m ρ c) (Proc.devRef .tc main_v26) = _
  dsimp only [hostOps0]
  after_results
  rfl

/-- Window 4 of the first region: b1 as a row. -/
theorem b1_entry (c : Dev nD) : W1 m ρ c (Proc.devRef .tc main_v27) = row64 (x4 m c) := by
  show StableHlo.after hostOps0 (W0 m ρ c) (Proc.devRef .tc main_v27) = _
  dsimp only [hostOps0]
  after_results
  rfl

end Cert.KernelIdeal.Host

end
-- ==== Proof.LibDot.lean ====
/-
  A plain matrix product read at an entry. For the dimension numbers "contract the left operand's columns with the
  right operand's rows, no batch axis", both the vector unit's product into a zero accumulator and the host's
  product are, at entry (r, c) and over the extended reals, the sum over k of x(r, k) · w(k, c).
-/
import Idealize.ShloMosaic.PureOps.Ideal
import Idealize.ShloMosaic.PureOps.Ideal.Laws
import Idealize.ShloMosaic.Lib.ValueIdx

noncomputable section

open scoped BigOperators

namespace Cert.LibDot

open Idealize.ShloMosaic Idealize.ShloMosaic.ValueIdx

/-! ## The four coordinates of the operand indices

  With the left operand's rows the only free left axis, the right operand's columns the only free right axis and
  one shared axis, the left operand is read at (row of the entry, shared coordinate) and the right operand at
  (shared coordinate, column of the entry). Each of the four coordinates is its own statement, at the literal axis. -/

section Axes

variable {R K C : Nat} (d : DotDims ⟨2, ![R, K]⟩ ⟨2, ![K, C]⟩ ⟨2, ![R, C]⟩)

/-- One shared axis. -/
theorem rank_contr_one (hl : d.lhsContracting = [1]) : d.contr.rank = 1 := by
  rw [d.rank_contr, hl]; rfl

/-- The shared axis has the left operand's column count. -/
theorem size_contr_zero (hl : d.lhsContracting = [1]) :
    d.contr.size ⟨0, by rw [rank_contr_one d hl]; exact Nat.one_pos⟩ = K := by
  have h := d.size_contr 0 (by rw [hl]; exact Nat.one_pos)
  rw [h]
  have h1 : d.lhsContracting[0]'(by rw [hl]; exact Nat.one_pos) = (1 : Fin 2) := by simp [hl]
  rw [h1]; rfl

/-- The left operand's row coordinate is the entry's row. -/
theorem lhs_axis0 (hln : d.lhsNonContracting = [0]) (hlb : d.lhsBatch = [])
    (j : (⟨2, ![R, C]⟩ : Shape).Idx) (k : d.contr.Idx) : (d.lhsIdx j k 0 : ℕ) = (j 0 : ℕ) := by
  unfold DotDims.lhsIdx
  rw [dif_neg (by rw [hlb]; exact List.not_mem_nil), dif_pos (by rw [hln]; exact List.mem_singleton.mpr rfl)]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln])

/-- The left operand's column coordinate is the shared coordinate. -/
theorem lhs_axis1 (hl : d.lhsContracting = [1]) (j : (⟨2, ![R, C]⟩ : Shape).Idx) (k : d.contr.Idx) :
    (d.lhsIdx j k 1 : ℕ) = (k ⟨0, by rw [rank_contr_one d hl]; exact Nat.one_pos⟩ : ℕ) :=
  d.lhsIdx_val_of_single hl j k

/-- The right operand's row coordinate is the shared coordinate. -/
theorem rhs_axis0 (hl : d.lhsContracting = [1]) (hr : d.rhsContracting = [0]) (j : (⟨2, ![R, C]⟩ : Shape).Idx)
    (k : d.contr.Idx) : (d.rhsIdx j k 0 : ℕ) = (k ⟨0, by rw [rank_contr_one d hl]; exact Nat.one_pos⟩ : ℕ) :=
  d.rhsIdx_val_of_single hr j k

/-- The right operand's column coordinate is the entry's column. -/
theorem rhs_axis1 (hln : d.lhsNonContracting = [0]) (hrn : d.rhsNonContracting = [1]) (hlb : d.lhsBatch = [])
    (hrb : d.rhsBatch = []) (j : (⟨2, ![R, C]⟩ : Shape).Idx) (k : d.contr.Idx) : (d.rhsIdx j k 1 : ℕ) = (j 1 : ℕ) := by
  unfold DotDims.rhsIdx
  rw [dif_neg (by rw [hrb]; exact List.not_mem_nil), dif_pos (by rw [hrn]; exact List.mem_singleton.mpr rfl)]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln, hrn])

end Axes

/-- The contraction sum of a plain product, re-indexed by the shared axis's coordinate: the left operand is read
    at (r, k), the right one at (k, c). -/
theorem contr_sum_plain {R K C : Nat} {φ₁ φ₂ : FTy} (d : DotDims ⟨2, ![R, K]⟩ ⟨2, ![K, C]⟩ ⟨2, ![R, C]⟩)
    (hl : d.lhsContracting = [1]) (hr : d.rhsContracting = [0]) (hln : d.lhsNonContracting = [0])
    (hrn : d.rhsNonContracting = [1]) (hlb : d.lhsBatch = []) (hrb : d.rhsBatch = [])
    (x : FVec Ideal ⟨2, ![R, K]⟩ φ₁) (w : FVec Ideal ⟨2, ![K, C]⟩ φ₂) (r : Fin R) (c : Fin C) :
    (∑ k : d.contr.Idx, x (d.lhsIdx (ix2 r c) k) * w (d.rhsIdx (ix2 r c) k)) = ∑ k : Fin K, x (ix2 r k) * w (ix2 k c) := by
  rw [← Equiv.sum_comp (contrEquiv1 d K (rank_contr_one d hl) (size_contr_zero d hl)).symm]
  refine Finset.sum_congr rfl fun k _ => ?_
  have hk := contrEquiv1_symm_val d K (rank_contr_one d hl) (size_contr_zero d hl) k
  have hx : d.lhsIdx (ix2 r c) ((contrEquiv1 d K (rank_contr_one d hl) (size_contr_zero d hl)).symm k) = ix2 r k := by
    funext a
    match a with
    | ⟨0, _⟩ => exact Fin.ext (lhs_axis0 d hln hlb _ _)
    | ⟨1, _⟩ => exact Fin.ext ((lhs_axis1 d hl _ _).trans hk)
  have hw : d.rhsIdx (ix2 r c) ((contrEquiv1 d K (rank_contr_one d hl) (size_contr_zero d hl)).symm k) = ix2 k c := by
    funext a
    match a with
    | ⟨0, _⟩ => exact Fin.ext ((rhs_axis0 d hl hr _ _).trans hk)
    | ⟨1, _⟩ => exact Fin.ext (rhs_axis1 d hln hrn hlb hrb _ _)
  rw [hx, hw]

/-- The vector unit's product into the zero accumulator, at entry (r, c). -/
theorem matmul_zero_at {R K C : Nat} {φ₁ φ₂ : FTy} (d : DotDims ⟨2, ![R, K]⟩ ⟨2, ![K, C]⟩ ⟨2, ![R, C]⟩)
    (hl : d.lhsContracting = [1]) (hr : d.rhsContracting = [0]) (hln : d.lhsNonContracting = [0])
    (hrn : d.rhsNonContracting = [1]) (hlb : d.lhsBatch = []) (hrb : d.rhsBatch = [])
    (prec : Option ContractPrecision) (x : FVec Ideal ⟨2, ![R, K]⟩ φ₁) (w : FVec Ideal ⟨2, ![K, C]⟩ φ₂) (r : Fin R) (c : Fin C) :
    FloatOps.matmul d prec x w (constant ⟨2, ![R, C]⟩ .f32 0x00000000#32) (ix2 r c) = ∑ k : Fin K, x (ix2 r k) * w (ix2 k c) := by
  rw [Ideal.matmul_constant_zero_apply]
  exact contr_sum_plain d hl hr hln hrn hlb hrb x w r c

/-- The host's product, at entry (r, c). -/
theorem dotGeneral_at {R K C : Nat} {φ₁ φ₂ : FTy} (d : DotDims ⟨2, ![R, K]⟩ ⟨2, ![K, C]⟩ ⟨2, ![R, C]⟩)
    (hl : d.lhsContracting = [1]) (hr : d.rhsContracting = [0]) (hln : d.lhsNonContracting = [0])
    (hrn : d.rhsNonContracting = [1]) (hlb : d.lhsBatch = []) (hrb : d.rhsBatch = [])
    (prec : Option ContractPrecision) (sched : HostSchedule) (x : FVec Ideal ⟨2, ![R, K]⟩ φ₁) (w : FVec Ideal ⟨2, ![K, C]⟩ φ₂)
    (r : Fin R) (c : Fin C) :
    FloatOps.dotGeneral d prec sched x w (ix2 r c) = ∑ k : Fin K, x (ix2 r k) * w (ix2 k c) := by
  rw [Ideal.dotGeneral_apply]
  exact contr_sum_plain d hl hr hln hrn hlb hrb x w r c

end Cert.LibDot

end
-- ==== Proof.KRegion0.lean ====
/-
  The first region's output array, as a function of the five arrays the region is entered with.

  The region runs over twenty points; at point t the two row windows hold rows 5000·t … 5000·t + 4999 of the
  aggregate and of the features, the two weight windows and the bias window the whole arrays, and the body stores
  max(aggr·W_l + x·W_r + b, 0) of those blocks, which is written back to rows 5000·t … 5000·t + 4999 of the output.
  A product into a zero accumulator is the plain sum of products and the change of float format the identity, so
  what point t writes back is block t of ONE whole-array function, the first layer; the twenty blocks cover the
  output array, so it ends holding that function.
-/
import proofs.«127781_j28621662060925_1_alg».proof.Proof.FrameKernelIdeal
import proofs.«127781_j28621662060925_1_alg».proof.Proof.Spec
import proofs.«127781_j28621662060925_1_alg».proof.Proof.LibDot
import Idealize.ShloMosaic.Lib.Pipeline.Value
import Idealize.ShloMosaic.Lib.ValueIdx
import Idealize.ShloMosaic.Lib.ValueLayout
import Idealize.ShloMosaic.PureOps.Ideal.Laws

noncomputable section

open scoped BigOperators
open Idealize.ShloMosaic Idealize.ShloMosaic.TcCoe Idealize.ShloMosaic.ValueIdx Idealize.SL.Sem
open Idealize.ShloMosaic.Pipeline (Dat)

namespace Cert.KernelIdeal.Region0

open Cert.KernelIdeal Cert.KernelIdeal.Gen Cert.KernelIdeal.GenP

-- the buffer contents when the region is entered: any
variable (V : (c : Dev nD) → (b : Ref sig .tc) → Buf (Elt Ideal) ((c : Thread nD τ).loc b))

/-- The block's arithmetic at an entry: both products are plain sums of products over the shared axis, the bias row is
    read at the entry's column, and the final maximum is against zero. -/
theorem pay_at (x0 x1 : Vec Ideal S5000x128 .f32) (x2 x3 : Vec Ideal S128x64 .bf16) (x4 : Vec Ideal S1x64 .f32)
    (p : Fin 5000) (q : Fin 64) :
    k0_pay1 x0 x1 x2 x3 x4 (ix2 p q)
      = max (((∑ k : Fin 128, x0 (ix2 p k) * x2 (ix2 k q)) + (∑ k : Fin 128, x1 (ix2 p k) * x3 (ix2 k q)))
          + x4 (ix2 (0 : Fin 1) q)) 0 := by
  unfold k0_pay1
  simp only [shapeCast_self]
  have h1 : matmul (F := Ideal) (φ₁ := .bf16) (φ₂ := .bf16) dot_S5000x128_S128x64_S5000x64_1_0_0_1_n_n none (truncf FTy.bf16 x0 bitsLt_bf16_f32) (x2 : FVec Ideal S128x64 .bf16)
      (constant (F := Ideal) S5000x64 FTy.f32 0x00000000#32) (ix2 p q) = ∑ k : Fin 128, x0 (ix2 p k) * x2 (ix2 k q) :=
    Cert.LibDot.matmul_zero_at (φ₁ := .bf16) (φ₂ := .bf16) dot_S5000x128_S128x64_S5000x64_1_0_0_1_n_n rfl rfl rfl rfl rfl rfl none
      (truncf FTy.bf16 x0 bitsLt_bf16_f32) (x2 : FVec Ideal S128x64 .bf16) p q
  have h2 : matmul (F := Ideal) (φ₁ := .bf16) (φ₂ := .bf16) dot_S5000x128_S128x64_S5000x64_1_0_0_1_n_n none (truncf FTy.bf16 x1 bitsLt_bf16_f32) (x3 : FVec Ideal S128x64 .bf16)
      (constant (F := Ideal) S5000x64 FTy.f32 0x00000000#32) (ix2 p q) = ∑ k : Fin 128, x1 (ix2 p k) * x3 (ix2 k q) :=
    Cert.LibDot.matmul_zero_at (φ₁ := .bf16) (φ₂ := .bf16) dot_S5000x128_S128x64_S5000x64_1_0_0_1_n_n rfl rfl rfl rfl rfl rfl none
      (truncf FTy.bf16 x1 bitsLt_bf16_f32) (x3 : FVec Ideal S128x64 .bf16) p q
  have h3 : broadcastTo S5000x64 x4 broadcasts_S1x64_S5000x64 (ix2 p q) = x4 (ix2 (0 : Fin 1) q) :=
    broadcastTo_apply x4 broadcasts_S1x64_S5000x64 (ix2 p q) (ix2 (0 : Fin 1) q) (fun a => by
      match a with
      | ⟨0, _⟩ => rfl
      | ⟨1, _⟩ => rfl)
  show max ((matmul (F := Ideal) (φ₁ := .bf16) (φ₂ := .bf16) dot_S5000x128_S128x64_S5000x64_1_0_0_1_n_n none (truncf FTy.bf16 x0 bitsLt_bf16_f32) (x2 : FVec Ideal S128x64 .bf16)
      (constant (F := Ideal) S5000x64 FTy.f32 0x00000000#32) (ix2 p q)
      + matmul (F := Ideal) (φ₁ := .bf16) (φ₂ := .bf16) dot_S5000x128_S128x64_S5000x64_1_0_0_1_n_n none (truncf FTy.bf16 x1 bitsLt_bf16_f32) (x3 : FVec Ideal S128x64 .bf16)
      (constant (F := Ideal) S5000x64 FTy.f32 0x00000000#32) (ix2 p q))
      + broadcastTo S5000x64 x4 broadcasts_S1x64_S5000x64 (ix2 p q)) (Ideal.ofBits .f32 0x00000000#32) = _
  rw [h1, h2, h3, Ideal.ofBits_zero_f32]

theorem hz : (![0, 0] : Fin 2 → Nat) = fun _ => 0 := funext fun a => by
  match a with
  | ⟨0, _⟩ => rfl
  | ⟨1, _⟩ => rfl

/-- The block indices at a point, decided over the twenty points: the two row blocks and the output block are the
    point's own block of rows; the two weight blocks and the bias row are the whole arrays. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The first row block at point t is rows 5000 t … 5000 t + 4999 of the aggregate. -/
theorem blk0_at (c : Dev nD) (t : Fin cfg0.N) (p : Fin 5000) (k : Fin 128) (r : Fin 100000)
    (hr : r.val = t.val * 5000 + p.val) :
    (iblk0 V c 0 t : Vec Ideal S5000x128 .f32) (ix2 p k) = (V c main_v22 : Vec Ideal S100000x128 .f32) (ix2 r k) := by
  obtain ⟨e0, e1, -⟩ := idx_facts t
  show (V c main_v22 : Vec Ideal S100000x128 .f32) (((cfg0.win 0).blk t).view.emb (ix2 p k)) = _
  refine congrArg _ (funext fun a => Fin.ext ?_)
  match a with
  | ⟨0, _⟩ => show win0_0.index t (0 : Fin 2) * 5000 + 1 * p.val = r.val; omega
  | ⟨1, _⟩ => show win0_0.index t (1 : Fin 2) * 128 + 1 * k.val = k.val; omega

/-- The second row block at point t is the same rows of the features. -/
theorem blk1_at (c : Dev nD) (t : Fin cfg0.N) (p : Fin 5000) (k : Fin 128) (r : Fin 100000)
    (hr : r.val = t.val * 5000 + p.val) :
    (iblk0 V c 1 t : Vec Ideal S5000x128 .f32) (ix2 p k) = (V c main_arg0 : Vec Ideal S100000x128 .f32) (ix2 r k) := by
  obtain ⟨-, -, e0, e1, -⟩ := idx_facts t
  show (V c main_arg0 : Vec Ideal S100000x128 .f32) (((cfg0.win 1).blk t).view.emb (ix2 p k)) = _
  refine congrArg _ (funext fun a => Fin.ext ?_)
  match a with
  | ⟨0, _⟩ => show win0_1.index t (0 : Fin 2) * 5000 + 1 * p.val = r.val; omega
  | ⟨1, _⟩ => show win0_1.index t (1 : Fin 2) * 128 + 1 * k.val = k.val; omega

/-- The first weight block at every point is the whole first weight array. -/
theorem blk2_at (c : Dev nD) (t : Fin cfg0.N) (k : Fin 128) (q : Fin 64) :
    (iblk0 V c 2 t : Vec Ideal S128x64 .bf16) (ix2 k q) = (V c main_v24 : Vec Ideal S128x64 .bf16) (ix2 k q) := by
  obtain ⟨-, -, -, -, e0, e1, -⟩ := idx_facts t
  show (V c main_v24 : Vec Ideal S128x64 .bf16) (((cfg0.win 2).blk t).view.emb (ix2 k q)) = _
  refine congrArg _ (funext fun a => Fin.ext ?_)
  match a with
  | ⟨0, _⟩ => show win0_2.index t (0 : Fin 2) * 128 + 1 * k.val = k.val; omega
  | ⟨1, _⟩ => show win0_2.index t (1 : Fin 2) * 64 + 1 * q.val = q.val; omega

/-- The second weight block at every point is the whole second weight array. -/
theorem blk3_at (c : Dev nD) (t : Fin cfg0.N) (k : Fin 128) (q : Fin 64) :
    (iblk0 V c 3 t : Vec Ideal S128x64 .bf16) (ix2 k q) = (V c main_v26 : Vec Ideal S128x64 .bf16) (ix2 k q) := by
  obtain ⟨-, -, -, -, -, -, e0, e1, -⟩ := idx_facts t
  show (V c main_v26 : Vec Ideal S128x64 .bf16) (((cfg0.win 3).blk t).view.emb (ix2 k q)) = _
  refine congrArg _ (funext fun a => Fin.ext ?_)
  match a with
  | ⟨0, _⟩ => show win0_3.index t (0 : Fin 2) * 128 + 1 * k.val = k.val; omega
  | ⟨1, _⟩ => show win0_3.index t (1 : Fin 2) * 64 + 1 * q.val = q.val; omega

/-- The bias block at every point is the whole bias row. -/
theorem blk4_at (c : Dev nD) (t : Fin cfg0.N) (z : Fin 1) (q : Fin 64) :
    (iblk0 V c 4 t : Vec Ideal S1x64 .f32) (ix2 z q) = (V c main_v27 : Vec Ideal S1x64 .f32) (ix2 z q) := by
  obtain ⟨-, -, -, -, -, -, -, -, e0, e1, -⟩ := idx_facts t
  show (V c main_v27 : Vec Ideal S1x64 .f32) (((cfg0.win 4).blk t).view.emb (ix2 z q)) = _
  refine congrArg _ (funext fun a => Fin.ext ?_)
  match a with
  | ⟨0, _⟩ => show win0_4.index t (0 : Fin 2) * 1 + 1 * z.val = z.val; omega
  | ⟨1, _⟩ => show win0_4.index t (1 : Fin 2) * 64 + 1 * q.val = q.val; omega

/-- An entry of the output block at point t sits at row 5000 t + p of the output array. -/
theorem emb5_at (t : Fin cfg0.N) (p : Fin 5000) (q : Fin 64) (r : Fin 100000) (hr : r.val = t.val * 5000 + p.val) :
    ((cfg0.win 5).blk t).view.emb (ix2 p q) = (ix2 r q : S100000x64.Idx) := by
  obtain ⟨-, -, -, -, -, -, -, -, -, -, e0, e1⟩ := idx_facts t
  refine funext fun a => Fin.ext ?_
  match a with
  | ⟨0, _⟩ => show win0_5.index t (0 : Fin 2) * 5000 + 1 * p.val = r.val; omega
  | ⟨1, _⟩ => show win0_5.index t (1 : Fin 2) * 64 + 1 * q.val = q.val; omega

/-- What point t writes back is block t of the first layer of the five arrays the region was entered with. -/
theorem flushed_eq (c : Dev nD) (t : Fin cfg0.N) :
    (dat0 (F := Ideal) V c).flushed 5 t = ((cfg0.win 5).blk t).view.read (Elt Ideal)
      (Cert.Sage.layer1 (V c main_v22) (V c main_arg0) (V c main_v24) (V c main_v26) (V c main_v27)) := by
  show (cfg0.win 5).cut (grid0.coords t) ((dat0 V c).after 5 t) = _
  rw [after0_5]
  unfold out0_5
  rw [View.canon_unit_zero hz]
  simp only [View.ld_unit_zero (S := S5000x128) hz, View.ld_unit_zero (S := S128x64) hz, View.ld_unit_zero (S := S1x64) hz]
  funext j
  obtain ⟨p, q, rfl⟩ : ∃ (p : Fin 5000) (q : Fin 64), j = ix2 p q := ⟨j 0, j 1, eq_ix2 j⟩
  have ht : t.val < 20 := lt_of_lt_of_eq t.isLt N_0
  have hx : (cfg0.win 5).xinj (grid0.coords t) (ix2 p q) = (ix2 p q : S5000x64.Idx) := funext fun a => by
    match a with
    | ⟨0, _⟩ => rfl
    | ⟨1, _⟩ => rfl
  show k0_pay1 (iblk0 V c 0 t) (iblk0 V c 1 t) (iblk0 V c 2 t) (iblk0 V c 3 t) (iblk0 V c 4 t)
      ((cfg0.win 5).xinj (grid0.coords t) (ix2 p q))
    = Cert.Sage.layer1 (V c main_v22) (V c main_arg0) (V c main_v24) (V c main_v26) (V c main_v27)
      (((cfg0.win 5).blk t).view.emb (ix2 p q))
  rw [hx, emb5_at t p q ⟨t.val * 5000 + p.val, by omega⟩ rfl, Cert.Sage.layer1_ix2, pay_at]
  unfold Cert.Sage.layer1At
  refine congrArg₂ max (congrArg₂ (· + ·) (congrArg₂ (· + ·) (Finset.sum_congr rfl fun k _ => ?_)
    (Finset.sum_congr rfl fun k _ => ?_)) ?_) rfl
  · rw [blk0_at V c t p k ⟨t.val * 5000 + p.val, by omega⟩ rfl, blk2_at V c t k q]
  · rw [blk1_at V c t p k ⟨t.val * 5000 + p.val, by omega⟩ rfl, blk3_at V c t k q]
  · exact blk4_at V c t 0 q

/-- An index of the output array is in point t's block iff each coordinate is in the block's range on its axis. -/
theorem mem_blk (t : Fin cfg0.N) (i : S100000x64.Idx) :
    i ∈ ((cfg0.win 5).blk t).view.set ↔ ∀ a : Fin 2, win0_5.index t a * S5000x64.size a ≤ (i a).val
      ∧ (i a).val < win0_5.index t a * S5000x64.size a + S5000x64.size a := by
  show i ∈ ((View.whole main_v28).slice (win0_5.rect t)).set ↔ _
  rw [View.set_slice_whole, Rect.mem_set_unit]
  exact Iff.rfl

/-- The twenty blocks of 5000 rows cover the output array: row r is in the block of point r / 5000. -/
theorem cover (i : S100000x64.Idx) :
    ∃ t : Fin cfg0.N, (cfg0.win 5).flush t = true ∧ i ∈ ((cfg0.win 5).blk t).view.set := by
  have hi0 : (i 0).val < 100000 := (i 0).isLt
  have hi1 : (i 1).val < 64 := (i 1).isLt
  have hN : (i 0).val / 5000 < cfg0.N := by
    show (i 0).val / 5000 < grid0.N
    rw [N_0]; omega
  obtain ⟨t, ht⟩ : ∃ t : Fin cfg0.N, t.val = (i 0).val / 5000 := ⟨⟨_, hN⟩, rfl⟩
  obtain ⟨-, -, -, -, -, -, -, -, -, -, e0, e1⟩ := idx_facts t
  refine ⟨t, flush0_5 t, ?_⟩
  rw [mem_blk]
  intro a
  match a with
  | ⟨0, _⟩ =>
    show win0_5.index t (0 : Fin 2) * 5000 ≤ (i 0).val ∧ (i 0).val < win0_5.index t (0 : Fin 2) * 5000 + 5000
    omega
  | ⟨1, _⟩ =>
    show win0_5.index t (1 : Fin 2) * 64 ≤ (i 1).val ∧ (i 1).val < win0_5.index t (1 : Fin 2) * 64 + 64
    omega

/-- After the first region its output array holds the first layer of the five arrays it was entered with. -/
theorem value (c : Dev nD) :
    (dat0 (F := Ideal) V c).arrAt 5 cfg0.N
      = Cert.Sage.layer1 (V c main_v22) (V c main_arg0) (V c main_v24) (V c main_v26) (V c main_v27) := by
  exact (dat0 V c).arrAt_eq_of_cover 5 _ (fun t _ => flushed_eq V c t) cover

end Cert.KernelIdeal.Region0

end
-- ==== Proof.KRegion1.lean ====
/-
  The second region's output array, as a function of the five arrays the region is entered with.

  As in the first region, over twenty points of 5000 rows: the body stores aggr·W_l + h·W_r + b of the point's
  blocks (no clamp), written back to the same rows of the result; what point t writes back is block t of the
  second layer as one whole-array function, and the twenty blocks cover the result array.
-/
import proofs.«127781_j28621662060925_1_alg».proof.Proof.FrameKernelIdeal
import proofs.«127781_j28621662060925_1_alg».proof.Proof.Spec
import proofs.«127781_j28621662060925_1_alg».proof.Proof.LibDot
import Idealize.ShloMosaic.Lib.Pipeline.Value
import Idealize.ShloMosaic.Lib.ValueIdx
import Idealize.ShloMosaic.Lib.ValueLayout
import Idealize.ShloMosaic.PureOps.Ideal.Laws

noncomputable section

open scoped BigOperators
open Idealize.ShloMosaic Idealize.ShloMosaic.TcCoe Idealize.ShloMosaic.ValueIdx Idealize.SL.Sem
open Idealize.ShloMosaic.Pipeline (Dat)

namespace Cert.KernelIdeal.Region1

open Cert.KernelIdeal Cert.KernelIdeal.Gen Cert.KernelIdeal.GenP

-- the buffer contents when the region is entered: any
variable (V : (c : Dev nD) → (b : Ref sig .tc) → Buf (Elt Ideal) ((c : Thread nD τ).loc b))

/-- One entry of the body's result: the two products' sums and the bias entry of the column. -/
theorem pay_at (x0 x1 : Vec Ideal S5000x64 .f32) (x2 x3 : Vec Ideal S64x128 .bf16) (x4 : Vec Ideal S1x128 .f32)
    (p : Fin 5000) (q : Fin 128) :
    k1_pay1 (F := Ideal) x0 x1 x2 x3 x4 (ix2 p q)
      = ((∑ k : Fin 64, x0 (ix2 p k) * x2 (ix2 k q)) + (∑ k : Fin 64, x1 (ix2 p k) * x3 (ix2 k q)))
        + x4 (ix2 (0 : Fin 1) q) := by
  unfold k1_pay1
  simp only [shapeCast_self]
  have h0 := LibDot.matmul_zero_at (φ₁ := .bf16) (φ₂ := .bf16) dot_S5000x64_S64x128_S5000x128_1_0_0_1_n_n rfl rfl rfl rfl rfl rfl none
    (truncf .bf16 x0 bitsLt_bf16_f32) x2 p q
  have h1 := LibDot.matmul_zero_at (φ₁ := .bf16) (φ₂ := .bf16) dot_S5000x64_S64x128_S5000x128_1_0_0_1_n_n rfl rfl rfl rfl rfl rfl none
    (truncf .bf16 x1 bitsLt_bf16_f32) x3 p q
  have h2 : broadcastTo S5000x128 x4 broadcasts_S1x128_S5000x128 (ix2 p q) = x4 (ix2 (0 : Fin 1) q) :=
    broadcastTo_apply x4 broadcasts_S1x128_S5000x128 (ix2 p q) (ix2 (0 : Fin 1) q) (fun a => by
      match a with
      | ⟨0, _⟩ => rfl
      | ⟨1, _⟩ => rfl)
  exact congrArg₂ (· + ·) (congrArg₂ (· + ·) h0 h1) h2

theorem hz : (![0, 0] : Fin 2 → Nat) = fun _ => 0 := funext fun a => by fin_cases a <;> rfl

/-- The block index of each window at a point, decided over the twenty points: the two row windows and the output
    window sit at block (t, 0); the two weight windows and the bias window stay at block (0, 0). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- The aggregate's block at point t is rows 5000·t … 5000·t + 4999 of the aggregate. -/
theorem aggBlock_at (c : Dev nD) (t : Fin cfg1.N) (p : Fin 5000) (k : Fin 64) (r : Fin 100000)
    (hr : r.val = t.val * 5000 + p.val) :
    (iblk1 (F := Ideal) V c 0 t : Vec Ideal S5000x64 .f32) (ix2 p k)
      = (V c main_v47 : S100000x64.Idx → EReal) (ix2 r k) := by
  obtain ⟨e0, e1, -⟩ := idx_facts t
  unfold iblk1
  rw [View.read_apply]
  show V c main_v47 _ = V c main_v47 _
  congr 1
  funext a; apply Fin.ext
  match a with
  | ⟨0, _⟩ => show win1_0.index t (0 : Fin 2) * 5000 + 1 * p.val = r.val; omega
  | ⟨1, _⟩ => show win1_0.index t (1 : Fin 2) * 64 + 1 * k.val = k.val; omega

/-- The hidden features' block at point t is rows 5000·t … 5000·t + 4999 of the hidden features. -/
theorem hidBlock_at (c : Dev nD) (t : Fin cfg1.N) (p : Fin 5000) (k : Fin 64) (r : Fin 100000)
    (hr : r.val = t.val * 5000 + p.val) :
    (iblk1 (F := Ideal) V c 1 t : Vec Ideal S5000x64 .f32) (ix2 p k)
      = (V c main_v28 : S100000x64.Idx → EReal) (ix2 r k) := by
  obtain ⟨-, -, e2, e3, -⟩ := idx_facts t
  unfold iblk1
  rw [View.read_apply]
  show V c main_v28 _ = V c main_v28 _
  congr 1
  funext a; apply Fin.ext
  match a with
  | ⟨0, _⟩ => show win1_1.index t (0 : Fin 2) * 5000 + 1 * p.val = r.val; omega
  | ⟨1, _⟩ => show win1_1.index t (1 : Fin 2) * 64 + 1 * k.val = k.val; omega

/-- The neighbour weight's block is the whole weight at every point. -/
theorem wlBlock_at (c : Dev nD) (t : Fin cfg1.N) (k : Fin 64) (q : Fin 128) :
    (iblk1 (F := Ideal) V c 2 t : Vec Ideal S64x128 .bf16) (ix2 k q)
      = (V c main_v49 : S64x128.Idx → EReal) (ix2 k q) := by
  obtain ⟨-, -, -, -, e4, e5, -⟩ := idx_facts t
  unfold iblk1
  rw [View.read_apply]
  show V c main_v49 _ = V c main_v49 _
  congr 1
  funext a; apply Fin.ext
  match a with
  | ⟨0, _⟩ => show win1_2.index t (0 : Fin 2) * 64 + 1 * k.val = k.val; omega
  | ⟨1, _⟩ => show win1_2.index t (1 : Fin 2) * 128 + 1 * q.val = q.val; omega

/-- The root weight's block is the whole weight at every point. -/
theorem wrBlock_at (c : Dev nD) (t : Fin cfg1.N) (k : Fin 64) (q : Fin 128) :
    (iblk1 (F := Ideal) V c 3 t : Vec Ideal S64x128 .bf16) (ix2 k q)
      = (V c main_v51 : S64x128.Idx → EReal) (ix2 k q) := by
  obtain ⟨-, -, -, -, -, -, e6, e7, -⟩ := idx_facts t
  unfold iblk1
  rw [View.read_apply]
  show V c main_v51 _ = V c main_v51 _
  congr 1
  funext a; apply Fin.ext
  match a with
  | ⟨0, _⟩ => show win1_3.index t (0 : Fin 2) * 64 + 1 * k.val = k.val; omega
  | ⟨1, _⟩ => show win1_3.index t (1 : Fin 2) * 128 + 1 * q.val = q.val; omega

/-- The bias row's block is the whole row at every point. -/
theorem biasBlock_at (c : Dev nD) (t : Fin cfg1.N) (q : Fin 128) :
    (iblk1 (F := Ideal) V c 4 t : Vec Ideal S1x128 .f32) (ix2 (0 : Fin 1) q)
      = (V c main_v52 : S1x128.Idx → EReal) (ix2 (0 : Fin 1) q) := by
  obtain ⟨-, -, -, -, -, -, -, -, e8, e9, -⟩ := idx_facts t
  unfold iblk1
  rw [View.read_apply]
  show V c main_v52 _ = V c main_v52 _
  congr 1
  funext a; apply Fin.ext
  match a with
  | ⟨0, _⟩ => show win1_4.index t (0 : Fin 2) * 1 + 1 * (0 : Fin 1).val = (0 : Fin 1).val; omega
  | ⟨1, _⟩ => show win1_4.index t (1 : Fin 2) * 128 + 1 * q.val = q.val; omega

/-- What point t writes back is block t of the second layer of the five arrays as the region finds them. -/
theorem flushed_eq (c : Dev nD) (t : Fin cfg1.N) :
    (dat1 (F := Ideal) V c).flushed 5 t
      = ((cfg1.win 5).blk t).view.read (Elt Ideal)
          (Cert.Sage.layer2 (V c main_v47) (V c main_v28) (V c main_v49) (V c main_v51) (V c main_v52)) := by
  show (cfg1.win 5).cut (grid1.coords t) ((dat1 V c).after 5 t) = _
  rw [after1_5]
  unfold out1_5
  rw [View.canon_unit_zero hz]
  simp only [View.ld_unit_zero (S := S5000x64) hz, View.ld_unit_zero (S := S64x128) hz, View.ld_unit_zero (S := S1x128) hz]
  funext j
  obtain ⟨p, q, rfl⟩ : ∃ (p : Fin 5000) (q : Fin 128), j = ix2 p q := ⟨j 0, j 1, eq_ix2 j⟩
  have ht : t.val < 20 := t.isLt.trans_eq N_1
  obtain ⟨-, -, -, -, -, -, -, -, -, -, e10, e11⟩ := idx_facts t
  show k1_pay1 (iblk1 V c 0 t) (iblk1 V c 1 t) (iblk1 V c 2 t) (iblk1 V c 3 t) (iblk1 V c 4 t) (ix2 p q)
    = Cert.Sage.layer2 (V c main_v47) (V c main_v28) (V c main_v49) (V c main_v51) (V c main_v52)
        (((cfg1.win 5).blk t).view.emb (ix2 p q))
  have hemb : ((cfg1.win 5).blk t).view.emb (ix2 p q)
      = ix2 (⟨t.val * 5000 + p.val, by omega⟩ : Fin 100000) q := by
    funext a; apply Fin.ext
    match a with
    | ⟨0, _⟩ => show win1_5.index t (0 : Fin 2) * 5000 + 1 * p.val = t.val * 5000 + p.val; omega
    | ⟨1, _⟩ => show win1_5.index t (1 : Fin 2) * 128 + 1 * q.val = q.val; omega
  rw [hemb, Cert.Sage.layer2_ix2]
  refine (pay_at _ _ _ _ _ p q).trans ?_
  unfold Cert.Sage.layer2At
  refine congrArg₂ (· + ·) (congrArg₂ (· + ·)
    (Finset.sum_congr rfl fun k _ => congrArg₂ (· * ·) ?_ ?_)
    (Finset.sum_congr rfl fun k _ => congrArg₂ (· * ·) ?_ ?_)) ?_
  · exact aggBlock_at V c t p k _ rfl
  · exact wlBlock_at V c t k q
  · exact hidBlock_at V c t p k _ rfl
  · exact wrBlock_at V c t k q
  · exact biasBlock_at V c t q

/-- A node row and a column are in point t's block iff each coordinate is in the block's range on its axis. -/
theorem mem_blk (t : Fin cfg1.N) (i : S100000x128.Idx) :
    i ∈ ((cfg1.win 5).blk t).view.set
      ↔ ∀ a : Fin 2, win1_5.index t a * S5000x128.size a ≤ (i a).val
          ∧ (i a).val < win1_5.index t a * S5000x128.size a + S5000x128.size a := by
  show i ∈ ((View.whole main_v53).slice (win1_5.rect t)).set ↔ _
  rw [View.set_slice_whole, Rect.mem_set_unit]
  exact Iff.rfl

/-- Every entry of the output is written: row r is in the block of point r / 5000. -/
theorem cover (i : S100000x128.Idx) :
    ∃ t : Fin cfg1.N, (cfg1.win 5).flush t = true ∧ i ∈ ((cfg1.win 5).blk t).view.set := by
  have hi0 : (i 0).val < 100000 := (i 0).isLt
  have hi1 : (i 1).val < 128 := (i 1).isLt
  obtain ⟨t, ht⟩ : ∃ t : Fin cfg1.N, t.val = (i 0).val / 5000 :=
    ⟨⟨(i 0).val / 5000, by rw [show cfg1.N = 20 from N_1]; omega⟩, rfl⟩
  obtain ⟨-, -, -, -, -, -, -, -, -, -, e10, e11⟩ := idx_facts t
  refine ⟨t, flush1_5 t, ?_⟩
  rw [mem_blk]
  intro a
  match a with
  | ⟨0, _⟩ =>
    show win1_5.index t (0 : Fin 2) * 5000 ≤ (i 0).val ∧ (i 0).val < win1_5.index t (0 : Fin 2) * 5000 + 5000
    omega
  | ⟨1, _⟩ =>
    show win1_5.index t (1 : Fin 2) * 128 ≤ (i 1).val ∧ (i 1).val < win1_5.index t (1 : Fin 2) * 128 + 128
    omega

/-- After the second region its output array holds the second layer of the five arrays it was entered with. -/
theorem value (c : Dev nD) :
    (dat1 (F := Ideal) V c).arrAt 5 cfg1.N
      = Cert.Sage.layer2 (V c main_v47) (V c main_v28) (V c main_v49) (V c main_v51) (V c main_v52) := by
  exact (dat1 V c).arrAt_eq_of_cover 5 _ (fun t _ => flushed_eq V c t) cover

end Cert.KernelIdeal.Region1

end
-- ==== Proof.KValue.lean ====
/-
  The idealized kernel's result array, as the specification's function of the eight arguments.

  The first region leaves the first layer of (mean aggregate of x, x, W_l1ᵀ, W_r1ᵀ, b1 as a row) in its output
  array; the edge sources and destinations, and the second layer's weights and bias, are not among its arrays and
  keep what they held. The second stretch of host operations computes the mean aggregate of that output from the
  same sources and destinations, and the second region leaves the second layer in the result array.
-/
import proofs.«127781_j28621662060925_1_alg».proof.Proof.KHost
import proofs.«127781_j28621662060925_1_alg».proof.Proof.KRegion0
import proofs.«127781_j28621662060925_1_alg».proof.Proof.KRegion1

set_option maxRecDepth 16384

noncomputable section

open Idealize.ShloMosaic Idealize.ShloMosaic.TcCoe Idealize.ShloMosaic.StableHlo Idealize.SL.Sem

namespace Cert.KernelIdeal.Host

open Cert.KernelIdeal Cert.KernelIdeal.Gen Cert.KernelIdeal.GenP Cert.Sage Cert.LibKeepAll

variable (m : (ℓ : Loc nD τ sig) → Buf (Elt Ideal) ℓ) (ρ : Dev nD → PrngReg)

/-! ## What the first region leaves -/

/-- The first region's output array holds the hidden features. -/
theorem hidden_exit (c : Dev nD) :
    W2 m ρ c (Proc.devRef .tc main_v28) = hidden (x0 m c) (x1 m c) (x2 m c) (x3 m c) (x4 m c) := by
  refine (W2_arr m ρ c 5).trans ((Cert.KernelIdeal.Region0.value (V1 m ρ) c).trans ?_)
  show layer1 (W1 m ρ c (Proc.devRef .tc main_v22)) (W1 m ρ c (Proc.devRef .tc main_arg0))
    (W1 m ρ c (Proc.devRef .tc main_v24)) (W1 m ρ c (Proc.devRef .tc main_v26)) (W1 m ρ c (Proc.devRef .tc main_v27)) = _
  rw [aggr_entry, x_entry, wl1_entry, wr1_entry, b1_entry]
  rfl

/-- The edge sources are not among the first region's arrays. -/
theorem src_exit (c : Dev nD) : W2 m ρ c (Proc.devRef .tc main_v1) = srcOf (x1 m c) :=
  (W2_of_ne m ρ c main_v1 (by decide)).trans (src_entry m ρ c)

/-- Nor are the edge destinations. -/
theorem dst_exit (c : Dev nD) : W2 m ρ c (Proc.devRef .tc main_v3) = dstOf (x1 m c) :=
  (W2_of_ne m ρ c main_v3 (by decide)).trans (dst_entry m ρ c)

/-- The second layer's weights and bias are as launched when the first region ends. -/
theorem wl2_exit (c : Dev nD) : W2 m ρ c (Proc.devRef .tc main_arg5) = x5 m c := by
  refine (W2_of_ne m ρ c main_arg5 (by decide)).trans ?_
  show StableHlo.after hostOps0 (W0 m ρ c) (Proc.devRef .tc main_arg5) = _
  refine Eq.trans ?_ (rfl : W0 m ρ c (Proc.devRef .tc main_arg5) = _)
  kept_all hostOps0

theorem wr2_exit (c : Dev nD) : W2 m ρ c (Proc.devRef .tc main_arg6) = x6 m c := by
  refine (W2_of_ne m ρ c main_arg6 (by decide)).trans ?_
  show StableHlo.after hostOps0 (W0 m ρ c) (Proc.devRef .tc main_arg6) = _
  refine Eq.trans ?_ (rfl : W0 m ρ c (Proc.devRef .tc main_arg6) = _)
  kept_all hostOps0

theorem b2_exit (c : Dev nD) : W2 m ρ c (Proc.devRef .tc main_arg7) = x7 m c := by
  refine (W2_of_ne m ρ c main_arg7 (by decide)).trans ?_
  show StableHlo.after hostOps0 (W0 m ρ c) (Proc.devRef .tc main_arg7) = _
  refine Eq.trans ?_ (rfl : W0 m ρ c (Proc.devRef .tc main_arg7) = _)
  kept_all hostOps0

/-! ## What the second region is entered with -/

set_option maxHeartbeats 1000000 in
/-- Window 0 of the second region: the mean aggregate of the first region's output. -/
theorem aggr_entry2 (c : Dev nD) :
    W3 m ρ c (Proc.devRef .tc main_v47)
      = agg64 (W2 m ρ c (Proc.devRef .tc main_v28)) (W2 m ρ c (Proc.devRef .tc main_v1)) (W2 m ρ c (Proc.devRef .tc main_v3)) := by
  show StableHlo.after hostOps1 (W2 m ρ c) (Proc.devRef .tc main_v47) = _
  dsimp only [hostOps1]
  after_results_simp
  rfl

/-- Window 1 of the second region: the first region's output, which the second stretch does not write. -/
theorem h_entry2 (c : Dev nD) : W3 m ρ c (Proc.devRef .tc main_v28) = W2 m ρ c (Proc.devRef .tc main_v28) := by
  show StableHlo.after hostOps1 (W2 m ρ c) (Proc.devRef .tc main_v28) = _
  kept_all hostOps1

/-- Window 2 of the second region: W_l2 transposed. -/
theorem wl2_entry (c : Dev nD) : W3 m ρ c (Proc.devRef .tc main_v49) = wT2 (W2 m ρ c (Proc.devRef .tc main_arg5)) := by
  show StableHlo.after hostOps1 (W2 m ρ c) (Proc.devRef .tc main_v49) = _
  dsimp only [hostOps1]
  after_results
  rfl

/-- Window 3 of the second region: W_r2 transposed. -/
theorem wr2_entry (c : Dev nD) : W3 m ρ c (Proc.devRef .tc main_v51) = wT2 (W2 m ρ c (Proc.devRef .tc main_arg6)) := by
  show StableHlo.after hostOps1 (W2 m ρ c) (Proc.devRef .tc main_v51) = _
  dsimp only [hostOps1]
  after_results
  rfl

/-- Window 4 of the second region: b2 as a row. -/
theorem b2_entry (c : Dev nD) : W3 m ρ c (Proc.devRef .tc main_v52) = row128 (W2 m ρ c (Proc.devRef .tc main_arg7)) := by
  show StableHlo.after hostOps1 (W2 m ρ c) (Proc.devRef .tc main_v52) = _
  dsimp only [hostOps1]
  after_results
  rfl

/-! ## The result -/

/-- The result array after the run is the specification's result of the arguments. -/
theorem kernel_value (c : Dev nD) :
    W4 m ρ c (Proc.devRef .tc main_v53)
      = result (x0 m c) (x1 m c) (x2 m c) (x3 m c) (x4 m c) (x5 m c) (x6 m c) (x7 m c) := by
  refine (W4_arr m ρ c 5).trans ((Cert.KernelIdeal.Region1.value (V3 m ρ) c).trans ?_)
  show layer2 (W3 m ρ c (Proc.devRef .tc main_v47)) (W3 m ρ c (Proc.devRef .tc main_v28))
    (W3 m ρ c (Proc.devRef .tc main_v49)) (W3 m ρ c (Proc.devRef .tc main_v51)) (W3 m ρ c (Proc.devRef .tc main_v52)) = _
  rw [aggr_entry2, h_entry2, wl2_entry, wr2_entry, b2_entry, hidden_exit, src_exit, dst_exit, wl2_exit, wr2_exit, b2_exit]
  rfl

end Cert.KernelIdeal.Host

end
-- ==== Proof.RefRead.lean ====
/-
  The reference's result, read one operation at a time, is the specification's result of the same arguments.

  The host operations that compute the edge sources and destinations, the mean aggregates and the transposed
  weights are the ones the specification names, applied to the same arguments, and are never opened. Each layer is
  read at an entry (r, c): the host's products are plain sums of products over the shared axis, the bias broadcast
  over the rows is the bias at the column, the clamp of the first layer is a maximum against zero. The reference
  adds (product + bias) + product where the specification adds (product + product) + bias: addition of extended
  reals is commutative and associative, so the two agree.
-/
import proofs.«127781_j28621662060925_1_alg».proof.Proof.Gen.ReferenceIdeal.Read
import proofs.«127781_j28621662060925_1_alg».proof.Proof.Gen.KernelIdeal
import proofs.«127781_j28621662060925_1_alg».proof.Proof.Spec
import proofs.«127781_j28621662060925_1_alg».proof.Proof.LibDot
import Idealize.ShloMosaic.Lib.Pipeline.Value
import Idealize.ShloMosaic.Lib.ValueIdx
import Idealize.ShloMosaic.Lib.ValueLayout
import Idealize.ShloMosaic.PureOps.Ideal.Laws

noncomputable section

open scoped BigOperators
open Idealize.ShloMosaic Idealize.ShloMosaic.TcCoe Idealize.ShloMosaic.ValueIdx Idealize.SL.Sem

namespace Cert.ReferenceIdeal.RefValue

open Cert.ReferenceIdeal Cert.ReferenceIdeal.Gen Cert.ReferenceIdeal.Read

/-! ## The shared host chain

  The edge rows, the two mean aggregates and the transposed weights are the same operations in the reference and
  in the specification, applied to the same arguments; they are equal as they stand, at every float semantics. -/

section Host
variable {F : FTy → Type} [FloatOps F]

/-- The edge sources. -/
theorem v1_eq (x1 : (⟨S2x1600000, .i32⟩ : BufTy).Contents (Elt F)) :
    val_main_v1 (F := F) x1 = Cert.Sage.srcOf x1 := rfl

/-- The edge destinations. -/
theorem v3_eq (x1 : (⟨S2x1600000, .i32⟩ : BufTy).Contents (Elt F)) :
    val_main_v3 (F := F) x1 = Cert.Sage.dstOf x1 := rfl

/-- The first layer's left weight, transposed. -/
theorem v23_eq (x2 : (⟨S64x128, .f32⟩ : BufTy).Contents (Elt F)) :
    val_main_v23 (F := F) x2 = Cert.Sage.wT1 x2 := rfl

/-- The first layer's right weight, transposed. -/
theorem v28_eq (x3 : (⟨S64x128, .f32⟩ : BufTy).Contents (Elt F)) :
    val_main_v28 (F := F) x3 = Cert.Sage.wT1 x3 := rfl

/-- The second layer's left weight, transposed. -/
theorem v51_eq (x5 : (⟨S128x64, .f32⟩ : BufTy).Contents (Elt F)) :
    val_main_v51 (F := F) x5 = Cert.Sage.wT2 x5 := rfl

/-- The second layer's right weight, transposed. -/
theorem v56_eq (x6 : (⟨S128x64, .f32⟩ : BufTy).Contents (Elt F)) :
    val_main_v56 (F := F) x6 = Cert.Sage.wT2 x6 := rfl

/-- The mean aggregate of the input features. -/
theorem v22_eq (x0 : (⟨S100000x128, .f32⟩ : BufTy).Contents (Elt F)) (x1 : (⟨S2x1600000, .i32⟩ : BufTy).Contents (Elt F)) :
    val_main_v22 (F := F) x0 x1 = Cert.Sage.agg128 x0 (Cert.Sage.srcOf x1) (Cert.Sage.dstOf x1) := rfl

/-- The mean aggregate of the hidden features. -/
theorem v50_eq (x0 : (⟨S100000x128, .f32⟩ : BufTy).Contents (Elt F)) (x1 : (⟨S2x1600000, .i32⟩ : BufTy).Contents (Elt F))
    (x2 x3 : (⟨S64x128, .f32⟩ : BufTy).Contents (Elt F)) (x4 : (⟨S64, .f32⟩ : BufTy).Contents (Elt F)) :
    val_main_v50 (F := F) x0 x1 x2 x3 x4 =
      Cert.Sage.agg64 (val_main_v31 (F := F) x0 x1 x2 x3 x4) (Cert.Sage.srcOf x1) (Cert.Sage.dstOf x1) := rfl

end Host

/-! ## The first layer

  At an entry (r, c) the reference computes max(((Σ_k a(r,k)·wl(k,c)) + b(c)) + (Σ_k x(r,k)·wr(k,c)), 0); the
  specification adds the two sums first and the bias last. Addition of extended reals is commutative and
  associative, so the two agree. -/

section Layer1

/-- The host's product of a [100000, 128] by a [128, 64] matrix, at an entry. -/
theorem dot1_at (l : FVec Ideal S100000x128 .f32) (w : FVec Ideal S128x64 .f32) (r : Fin 100000) (c : Fin 64) :
    Host.dotGeneral (F := Ideal) dot_S100000x128_S128x64_S100000x64_1_0_0_1_n_n none l w (ix2 r c)
      = ∑ k : Fin 128, l (ix2 r k) * w (ix2 k c) :=
  Cert.LibDot.dotGeneral_at dot_S100000x128_S128x64_S100000x64_1_0_0_1_n_n rfl rfl rfl rfl rfl rfl none _ l w r c

/-- The first bias, broadcast over the rows, at an entry: the bias at the column. -/
theorem bias1_at (x4 : (⟨S64, .f32⟩ : BufTy).Contents (Elt Ideal)) (r : Fin 100000) (c : Fin 64) :
    val_main_v26 (F := Ideal) x4 (ix2 r c) = Cert.Sage.row64 x4 (ix2 (0 : Fin 1) c) := by
  rw [val_main_v26_apply, val_main_v25_apply]
  unfold Cert.Sage.row64
  refine Eq.trans ?_ (shapeCast_apply x4 _ (ix2 (0 : Fin 1) c) (ix1 c) (by
    rw [Shape.rowMajor_val_two, Shape.rowMajor_val_one]; show c.val = 0 * 64 + c.val; omega)).symm
  exact congrArg x4 (funext fun a => match a with | ⟨0, _⟩ => rfl)

/-- The zero the first layer is clamped at. -/
theorem zero1_at (r : Fin 100000) (c : Fin 64) : val_main_call0_v0 (F := Ideal) (ix2 r c) = (0 : EReal) := by
  rw [val_main_call0_v0_apply, val_main_call0_cst_apply]
  exact Ideal.ofBits_zero_f32

/-- One entry of the reference's first layer: the products, the bias and the clamp, the sum taken in the
    specification's order. -/
theorem v31_at (x0 : (⟨S100000x128, .f32⟩ : BufTy).Contents (Elt Ideal)) (x1 : (⟨S2x1600000, .i32⟩ : BufTy).Contents (Elt Ideal))
    (x2 x3 : (⟨S64x128, .f32⟩ : BufTy).Contents (Elt Ideal)) (x4 : (⟨S64, .f32⟩ : BufTy).Contents (Elt Ideal))
    (r : Fin 100000) (c : Fin 64) :
    val_main_v31 (F := Ideal) x0 x1 x2 x3 x4 (ix2 r c)
      = Cert.Sage.layer1At (val_main_v22 (F := Ideal) x0 x1) x0 (val_main_v23 (F := Ideal) x2)
          (val_main_v28 (F := Ideal) x3) (Cert.Sage.row64 x4) r c := by
  have e24 : val_main_v24 (F := Ideal) x0 x1 x2 (ix2 r c)
      = ∑ k : Fin 128, val_main_v22 (F := Ideal) x0 x1 (ix2 r k) * val_main_v23 (F := Ideal) x2 (ix2 k c) :=
    dot1_at (val_main_v22 (F := Ideal) x0 x1) (val_main_v23 (F := Ideal) x2) r c
  have e29 : val_main_v29 (F := Ideal) x0 x3 (ix2 r c)
      = ∑ k : Fin 128, x0 (ix2 r k) * val_main_v28 (F := Ideal) x3 (ix2 k c) :=
    dot1_at x0 (val_main_v28 (F := Ideal) x3) r c
  rw [val_main_v31_apply, val_main_v30_apply, val_main_v27_apply, e24, e29, bias1_at x4 r c, zero1_at r c,
    Ideal.maximumf_def, Ideal.addf_def, Ideal.addf_def, add_right_comm]
  rfl

/-- The reference's hidden features are the specification's. -/
theorem v31_eq (x0 : (⟨S100000x128, .f32⟩ : BufTy).Contents (Elt Ideal)) (x1 : (⟨S2x1600000, .i32⟩ : BufTy).Contents (Elt Ideal))
    (x2 x3 : (⟨S64x128, .f32⟩ : BufTy).Contents (Elt Ideal)) (x4 : (⟨S64, .f32⟩ : BufTy).Contents (Elt Ideal)) :
    val_main_v31 (F := Ideal) x0 x1 x2 x3 x4 = Cert.Sage.hidden x0 x1 x2 x3 x4 := by
  funext i
  obtain ⟨r, c, rfl⟩ : ∃ (r : Fin 100000) (c : Fin 64), i = ix2 r c := ⟨i 0, i 1, eq_ix2 i⟩
  refine (v31_at x0 x1 x2 x3 x4 r c).trans ?_
  rw [v22_eq, v23_eq, v28_eq]
  unfold Cert.Sage.hidden
  exact (Cert.Sage.layer1_ix2 _ _ _ _ _ r c).symm

end Layer1

/-! ## The second layer

  The same at an entry (r, c) of the result, with the hidden features and their mean aggregate in place of the
  input features, and no clamp. -/

section Layer2

/-- The host's product of a [100000, 64] by a [64, 128] matrix, at an entry. -/
theorem dot2_at (l : FVec Ideal S100000x64 .f32) (w : FVec Ideal S64x128 .f32) (r : Fin 100000) (c : Fin 128) :
    Host.dotGeneral (F := Ideal) dot_S100000x64_S64x128_S100000x128_1_0_0_1_n_n none l w (ix2 r c)
      = ∑ k : Fin 64, l (ix2 r k) * w (ix2 k c) :=
  Cert.LibDot.dotGeneral_at dot_S100000x64_S64x128_S100000x128_1_0_0_1_n_n rfl rfl rfl rfl rfl rfl none _ l w r c

/-- The second bias, broadcast over the rows, at an entry: the bias at the column. -/
theorem bias2_at (x7 : (⟨S128, .f32⟩ : BufTy).Contents (Elt Ideal)) (r : Fin 100000) (c : Fin 128) :
    val_main_v54 (F := Ideal) x7 (ix2 r c) = Cert.Sage.row128 x7 (ix2 (0 : Fin 1) c) := by
  rw [val_main_v54_apply, val_main_v53_apply]
  unfold Cert.Sage.row128
  refine Eq.trans ?_ (shapeCast_apply x7 _ (ix2 (0 : Fin 1) c) (ix1 c) (by
    rw [Shape.rowMajor_val_two, Shape.rowMajor_val_one]; show c.val = 0 * 128 + c.val; omega)).symm
  exact congrArg x7 (funext fun a => match a with | ⟨0, _⟩ => rfl)

/-- One entry of the reference's second layer: the two products and the bias, the sum taken in the
    specification's order. -/
theorem v58_at (x0 : (⟨S100000x128, .f32⟩ : BufTy).Contents (Elt Ideal)) (x1 : (⟨S2x1600000, .i32⟩ : BufTy).Contents (Elt Ideal))
    (x2 x3 : (⟨S64x128, .f32⟩ : BufTy).Contents (Elt Ideal)) (x4 : (⟨S64, .f32⟩ : BufTy).Contents (Elt Ideal))
    (x5 x6 : (⟨S128x64, .f32⟩ : BufTy).Contents (Elt Ideal)) (x7 : (⟨S128, .f32⟩ : BufTy).Contents (Elt Ideal))
    (r : Fin 100000) (c : Fin 128) :
    val_main_v58 (F := Ideal) x0 x1 x2 x3 x4 x5 x6 x7 (ix2 r c)
      = Cert.Sage.layer2At (val_main_v50 (F := Ideal) x0 x1 x2 x3 x4) (val_main_v31 (F := Ideal) x0 x1 x2 x3 x4)
          (val_main_v51 (F := Ideal) x5) (val_main_v56 (F := Ideal) x6) (Cert.Sage.row128 x7) r c := by
  have e52 : val_main_v52 (F := Ideal) x0 x1 x2 x3 x4 x5 (ix2 r c)
      = ∑ k : Fin 64, val_main_v50 (F := Ideal) x0 x1 x2 x3 x4 (ix2 r k) * val_main_v51 (F := Ideal) x5 (ix2 k c) :=
    dot2_at (val_main_v50 (F := Ideal) x0 x1 x2 x3 x4) (val_main_v51 (F := Ideal) x5) r c
  have e57 : val_main_v57 (F := Ideal) x0 x1 x2 x3 x4 x6 (ix2 r c)
      = ∑ k : Fin 64, val_main_v31 (F := Ideal) x0 x1 x2 x3 x4 (ix2 r k) * val_main_v56 (F := Ideal) x6 (ix2 k c) :=
    dot2_at (val_main_v31 (F := Ideal) x0 x1 x2 x3 x4) (val_main_v56 (F := Ideal) x6) r c
  rw [val_main_v58_apply, val_main_v55_apply, e52, e57, bias2_at x7 r c, Ideal.addf_def, Ideal.addf_def,
    add_right_comm]
  rfl

end Layer2

/-- The reference's result, operation by operation, is the specification's result of the same arguments. -/
theorem val_eq_result (x0 : (⟨S100000x128, .f32⟩ : BufTy).Contents (Elt Ideal)) (x1 : (⟨S2x1600000, .i32⟩ : BufTy).Contents (Elt Ideal))
    (x2 x3 : (⟨S64x128, .f32⟩ : BufTy).Contents (Elt Ideal)) (x4 : (⟨S64, .f32⟩ : BufTy).Contents (Elt Ideal))
    (x5 x6 : (⟨S128x64, .f32⟩ : BufTy).Contents (Elt Ideal)) (x7 : (⟨S128, .f32⟩ : BufTy).Contents (Elt Ideal)) :
    val_main_v58 (F := Ideal) x0 x1 x2 x3 x4 x5 x6 x7 = Cert.Sage.result x0 x1 x2 x3 x4 x5 x6 x7 := by
  funext i
  obtain ⟨r, c, rfl⟩ : ∃ (r : Fin 100000) (c : Fin 128), i = ix2 r c := ⟨i 0, i 1, eq_ix2 i⟩
  refine (v58_at x0 x1 x2 x3 x4 x5 x6 x7 r c).trans ?_
  rw [v50_eq, v31_eq, v51_eq, v56_eq]
  unfold Cert.Sage.result
  exact (Cert.Sage.layer2_ix2 _ _ _ _ _ r c).symm

end Cert.ReferenceIdeal.RefValue

end
-- ==== Proof.lean ====
/-
  A two-layer GraphSAGE: the tiled kernel against the plain reference, over the extended reals.

  Both programs compute, from node features x : [100000, 128], an edge list and the two layers' weights and biases,
      h   = max( mean(x)·W_l1ᵀ + x·W_r1ᵀ + b1, 0 )          out = mean(h)·W_l2ᵀ + h·W_r2ᵀ + b2,
  where mean(·) is the in-degree-normalised sum over incoming edges, computed by the SAME host operations in both
  programs (it is carried as one function and never opened). The kernel computes each layer in twenty row blocks of
  5000 nodes, the weights and the bias whole at every block, the two products into zero accumulators and the bias
  added last; the reference adds the bias between the two products. Over the extended reals a change of float
  format is the identity and a product into a zero accumulator is the plain sum of products, so the two sides differ
  only in the order of one addition: (p + q) + b against (p + b) + q, equal by commutativity and associativity
  alone. No finiteness is needed: the precondition is never opened.

  The idealized kernel's result array is read off its run region by region (each region's output array as the
  layer of the arrays the region was entered with; the host stretches read through the frame's boundary contents);
  the reference's result is read operation by operation. Both equal one function of the eight arguments.
  The frames of the two kernel programs are the generated frame certificates; the reference's frame is its
  generated run with the result dropped; the idealization ledger is empty.
-/
import proofs.«127781_j28621662060925_1_alg».proof.Defs
import proofs.«127781_j28621662060925_1_alg».proof.Proof.Gen.Kernel
import proofs.«127781_j28621662060925_1_alg».proof.Proof.Gen.KernelIdeal
import proofs.«127781_j28621662060925_1_alg».proof.Proof.Gen.ReferenceIdeal
import proofs.«127781_j28621662060925_1_alg».proof.Proof.Gen.Pre_finite_inputs
import proofs.«127781_j28621662060925_1_alg».proof.Proof.Gen.ReferenceIdeal.Run
import proofs.«127781_j28621662060925_1_alg».proof.Proof.Gen.ReferenceIdeal.Read
import proofs.«127781_j28621662060925_1_alg».proof.Proof.FrameKernel
import proofs.«127781_j28621662060925_1_alg».proof.Proof.FrameKernelIdeal
import proofs.«127781_j28621662060925_1_alg».proof.Proof.KRun
import proofs.«127781_j28621662060925_1_alg».proof.Proof.KValue
import proofs.«127781_j28621662060925_1_alg».proof.Proof.RefRead
import Idealize.ShloMosaic.Adequacy
import Idealize.ShloMosaic.Init

noncomputable section

namespace Cert.Proof

open Idealize.ShloMosaic Idealize.SL.Sem

/-- The word-level kernel runs and keeps its arguments. -/
theorem frame_kernel : Cert.frame_Kernel := fun m ρ _ => Cert.Kernel.GenP.frame m ρ

/-- The idealized kernel runs and keeps its arguments. -/
theorem frame_kernelIdeal : Cert.frame_KernelIdeal := fun m ρ _ => Cert.KernelIdeal.GenP.frame m ρ

/-- The reference runs and keeps its arguments: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- From memories agreeing on the arguments both programs end with the specification's result of those arguments. -/
theorem algebraic : Cert.algebraic_KernelIdeal_ReferenceIdeal := by
  intro m ρ m' ρ' _ hagree
  refine ⟨fun c => Cert.Sage.result (Cert.KernelIdeal.Host.x0 m c) (Cert.KernelIdeal.Host.x1 m c) (Cert.KernelIdeal.Host.x2 m c)
      (Cert.KernelIdeal.Host.x3 m c) (Cert.KernelIdeal.Host.x4 m c) (Cert.KernelIdeal.Host.x5 m c) (Cert.KernelIdeal.Host.x6 m c)
      (Cert.KernelIdeal.Host.x7 m c), ?_, ?_⟩
  · exact (θ_run Cert.KernelIdeal.defs _ _).mono
      (fun _ h c => ⟨(h c).1.trans (Cert.KernelIdeal.Host.kernel_value m ρ c), (h c).2⟩)
      (Cert.KernelIdeal.GenP.run_value (F := Ideal) m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6, h7⟩ := hagree c
    rw [Cert.ReferenceIdeal.Read.val_main_v58_eq, Cert.ReferenceIdeal.RefValue.val_eq_result, h0, h1, h2, h3, h4, h5, h6, h7]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
